-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x4096x1024 .f32) (main_arg1 : FVec F S1024x4096 .f32) (main_arg2 : FVec F S4096 .f32) (main_arg3 : FVec F S4096x1024 .f32) (main_arg4 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S4x4096x1024 : Shape := ⟨3, ![4, 4096, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S16384x1024 : Shape := ⟨2, ![16384, 1024]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩

abbrev nBuf : Space → Nat
  | .hbm => 12
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S1024x4096, .bf16⟩
  | .hbm, ⟨7, _⟩ => ⟨S4096x1024, .bf16⟩
  | .hbm, ⟨8, _⟩ => ⟨S1x4096, .f32⟩
  | .hbm, ⟨9, _⟩ => ⟨S1x1024, .f32⟩
  | .hbm, ⟨10, _⟩ => ⟨S16384x1024, .f32⟩
  | .hbm, ⟨11, _⟩ => ⟨S4x4096x1024, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x4096x1024_S16384x1024 : S4x4096x1024.ShapeCasts S16384x1024
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S16384x1024_S4x4096x1024 : S16384x1024.ShapeCasts S4x4096x1024
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S4x4096x4096 : Shape := ⟨3, ![4, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S1024x4096_S4x4096x4096_2_0_01_1_n_n_wf : DotDims.WF S4x4096x1024 S1024x4096 S4x4096x4096 [2] [0] [0, 1] [1] [] []
  dot_S4x4096x4096_S4096x1024_S4x4096x1024_2_0_01_1_n_n_wf : DotDims.WF S4x4096x4096 S4096x1024 S4x4096x1024 [2] [0] [0, 1] [1] [] []

variable [Facts₀]

def dot_S4x4096x1024_S1024x4096_S4x4096x4096_2_0_01_1_n_n : DotDims S4x4096x1024 S1024x4096 S4x4096x4096 where
  lhsContracting := [2]
  rhsContracting := [0]
  lhsNonContracting := [0, 1]
  rhsNonContracting := [1]
  lhsBatch := []
  rhsBatch := []
  wf := dot_S4x4096x1024_S1024x4096_S4x4096x4096_2_0_01_1_n_n_wf
def dot_S4x4096x4096_S4096x1024_S4x4096x1024_2_0_01_1_n_n : DotDims S4x4096x4096 S4096x1024 S4x4096x1024 where
  lhsContracting := [2]
  rhsContracting := [0]
  lhsNonContracting := [0, 1]
  rhsNonContracting := [1]
  lhsBatch := []
  rhsBatch := []
  wf := dot_S4x4096x4096_S4096x1024_S4x4096x1024_2_0_01_1_n_n_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.GatedMlp.lean ====
/-
  A feed-forward block with a polynomial gate, one row at a time, over the extended reals.

  A row `x` of width `D` goes through a dense layer to a hidden row `h` of width `H`; each hidden value is
  multiplied by the polynomial `1/2 + z/4 - c₃·z³` of `z = c₁·h` (the cubic that stands in for the logistic
  function in the approximate GELU `h · σ(1.702 h)`); a second dense layer brings the gated row back to width `D'`.
  The four coefficients are kept as the f32 words both programs spell, never evaluated: the two sides carry the
  same words, so the value of a word does not matter.

  Both programs compute exactly this function of each row: the kernel on a [rows, D] array cut into blocks of
  rows, the reference on a [batch, seq, D] array.  This file states the function, row by row, and reads the
  pointwise gate in the kernel's spelling (scalars splatted over a vector) and in the host's (scalar constants
  broadcast from rank zero).
-/
import Idealize.ShloMosaic.Lib.ValueIdx
import Idealize.ShloMosaic.PureOps.Ideal.Laws
import proofs.«180590_j70214125355100_1_alg».proof.Proof.LibRowOps

noncomputable section

open scoped BigOperators

namespace GatedMlp

open Idealize.ShloMosaic Idealize.ShloMosaic.ValueIdx

/-- The gate on one hidden value: `h · ((1/2 + 1/4 · z) - c₃ · ((z · z) · z))` with `z = c₁ · h`, the operations in
    the order both programs apply them. -/
def gate (h : EReal) : EReal :=
  h * ((Ideal.ofBits .f32 0x3F000000#32 + Ideal.ofBits .f32 0x3E800000#32 * (Ideal.ofBits .f32 0x3FD9DB23#32 * h))
    - Ideal.ofBits .f32 0x3CAA64C3#32
      * (((Ideal.ofBits .f32 0x3FD9DB23#32 * h) * (Ideal.ofBits .f32 0x3FD9DB23#32 * h)) * (Ideal.ofBits .f32 0x3FD9DB23#32 * h)))

/-- The block on one row: dense, gate, dense. -/
def row {D H D' : ℕ} (W₁ : (⟨2, ![D, H]⟩ : Shape).Idx → EReal) (b₁ : (⟨1, ![H]⟩ : Shape).Idx → EReal)
    (W₂ : (⟨2, ![H, D']⟩ : Shape).Idx → EReal) (b₂ : (⟨1, ![D']⟩ : Shape).Idx → EReal) (x : Fin D → EReal) : Fin D' → EReal :=
  RowOps.dense W₂ b₂ (fun f => gate (RowOps.dense W₁ b₁ x f))

/-- The block on a [batch, seq, D] array: every (batch, seq) row by itself. -/
def onRows3 {B S D H D' : ℕ} (X : (⟨3, ![B, S, D]⟩ : Shape).Idx → EReal) (W₁ : (⟨2, ![D, H]⟩ : Shape).Idx → EReal)
    (b₁ : (⟨1, ![H]⟩ : Shape).Idx → EReal) (W₂ : (⟨2, ![H, D']⟩ : Shape).Idx → EReal) (b₂ : (⟨1, ![D']⟩ : Shape).Idx → EReal) :
    (⟨3, ![B, S, D']⟩ : Shape).Idx → EReal :=
  fun i => row W₁ b₁ W₂ b₂ (fun k => X (ix3 (i 0) (i 1) k)) (i 2)

/-- The block on a [rows, D] array: every row by itself. -/
def onRows2 {R D H D' : ℕ} (X : (⟨2, ![R, D]⟩ : Shape).Idx → EReal) (W₁ : (⟨2, ![D, H]⟩ : Shape).Idx → EReal)
    (b₁ : (⟨1, ![H]⟩ : Shape).Idx → EReal) (W₂ : (⟨2, ![H, D']⟩ : Shape).Idx → EReal) (b₂ : (⟨1, ![D']⟩ : Shape).Idx → EReal) :
    (⟨2, ![R, D']⟩ : Shape).Idx → EReal :=
  fun i => row W₁ b₁ W₂ b₂ (fun k => X (ix2 (i 0) k)) (i 1)

theorem onRows3_apply {B S D H D' : ℕ} (X : (⟨3, ![B, S, D]⟩ : Shape).Idx → EReal) (W₁ : (⟨2, ![D, H]⟩ : Shape).Idx → EReal)
    (b₁ : (⟨1, ![H]⟩ : Shape).Idx → EReal) (W₂ : (⟨2, ![H, D']⟩ : Shape).Idx → EReal) (b₂ : (⟨1, ![D']⟩ : Shape).Idx → EReal)
    (b : Fin B) (s : Fin S) (d : Fin D') :
    onRows3 X W₁ b₁ W₂ b₂ (ix3 b s d) = row W₁ b₁ W₂ b₂ (fun k => X (ix3 b s k)) d := rfl

theorem onRows2_apply {R D H D' : ℕ} (X : (⟨2, ![R, D]⟩ : Shape).Idx → EReal) (W₁ : (⟨2, ![D, H]⟩ : Shape).Idx → EReal)
    (b₁ : (⟨1, ![H]⟩ : Shape).Idx → EReal) (W₂ : (⟨2, ![H, D']⟩ : Shape).Idx → EReal) (b₂ : (⟨1, ![D']⟩ : Shape).Idx → EReal)
    (r : Fin R) (d : Fin D') :
    onRows2 X W₁ b₁ W₂ b₂ (ix2 r d) = row W₁ b₁ W₂ b₂ (fun k => X (ix2 r k)) d := rfl

/-- The block of a row, written out: `Σ_f gate(Σ_k x[k]·W₁[k,f] + b₁[f]) · W₂[f,d] + b₂[d]`. -/
theorem row_apply {D H D' : ℕ} (W₁ : (⟨2, ![D, H]⟩ : Shape).Idx → EReal) (b₁ : (⟨1, ![H]⟩ : Shape).Idx → EReal)
    (W₂ : (⟨2, ![H, D']⟩ : Shape).Idx → EReal) (b₂ : (⟨1, ![D']⟩ : Shape).Idx → EReal) (x : Fin D → EReal) (d : Fin D') :
    row W₁ b₁ W₂ b₂ x d = (∑ f : Fin H, gate ((∑ k : Fin D, x k * W₁ (ix2 k f)) + b₁ (ix1 f)) * W₂ (ix2 f d)) + b₂ (ix1 d) := rfl

/-! ## The gate, in the two spellings -/

section Gate
variable {s : Shape}

/-- The kernel's spelling: each coefficient a scalar splatted over the vector. -/
theorem gate_kernel_apply (h : FVec Ideal s .f32) (i : s.Idx) :
    mulf h (subf
        (addf (broadcast s (Scalar.ofBits (F := Ideal) .f32 0x3F000000#32))
          (mulf (broadcast s (Scalar.ofBits (F := Ideal) .f32 0x3E800000#32))
            (mulf (broadcast s (Scalar.ofBits (F := Ideal) .f32 0x3FD9DB23#32)) h)))
        (mulf (broadcast s (Scalar.ofBits (F := Ideal) .f32 0x3CAA64C3#32))
          (mulf (mulf (mulf (broadcast s (Scalar.ofBits (F := Ideal) .f32 0x3FD9DB23#32)) h)
              (mulf (broadcast s (Scalar.ofBits (F := Ideal) .f32 0x3FD9DB23#32)) h))
            (mulf (broadcast s (Scalar.ofBits (F := Ideal) .f32 0x3FD9DB23#32)) h)))) i
      = gate (h i) := rfl

end Gate

end GatedMlp

end
-- ==== Proof.KernelBody.lean ====
/-
  What the kernel's body stores, read at one entry.

  The body loads a block of 256 rows of the input, both weight matrices whole and both biases as one-row
  arrays, and stores one [256, 1024] block.  At row `p` and column `q` the stored value is the second dense
  layer of the gated hidden row of row `p`: the matrix products into a zero accumulator are plain sums over
  the contracted index, the biases are one row copied down the rows, the narrowing casts are the identity on
  the extended reals, and the gate is applied entry by entry.
-/
import proofs.«180590_j70214125355100_1_alg».proof.Proof.Gen.KernelIdeal.Skeleton
import proofs.«180590_j70214125355100_1_alg».proof.Proof.GatedMlp
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The stored block at `(p, q)`: `Σ_f gate(Σ_k x[p,k]·W₁[k,f] + b₁[f]) · W₂[f,q] + b₂[q]`. -/
theorem stored_apply (x : FVec Ideal S256x1024 .f32) (W₁ : FVec Ideal S1024x4096 .bf16) (b₁ : FVec Ideal S1x4096 .f32)
    (W₂ : FVec Ideal S4096x1024 .bf16) (b₂ : FVec Ideal S1x1024 .f32) (p : Fin 256) (q : Fin 1024) :
    k0_pay1 (F := Ideal) x W₁ b₁ W₂ b₂ (ix2 p q)
      = (∑ f : Fin 4096, GatedMlp.gate ((∑ k : Fin 1024, x (ix2 p k) * W₁ (ix2 k f)) + b₁ (ix2 (0 : Fin 1) f)) * W₂ (ix2 f q))
        + b₂ (ix2 (0 : Fin 1) q) := by
  unfold k0_pay1
  simp only [shapeCast_self]
  rw [addf_apply, RowOps.matmul_plain_apply dot_S256x4096_S4096x1024_S256x1024_1_0_0_1_n_n rfl, broadcastTo_1b_ab_apply]
  congr 1
  refine Finset.sum_congr rfl fun f _ => ?_
  rw [truncf_apply, GatedMlp.gate_kernel_apply, addf_apply, RowOps.matmul_plain_apply dot_S256x1024_S1024x4096_S256x4096_1_0_0_1_n_n rfl, broadcastTo_1b_ab_apply]
  rfl

end Cert.KernelIdeal.Body

end
-- ==== Proof.KernelArray.lean ====
/-
  The kernel's result array, from what each grid point writes back.

  The grid has 64 points; point `t` is handed rows `256 t … 256 t + 255` of the input read as a
  [16384, 1024] array, both weight matrices and both bias rows whole, and writes back rows
  `256 t … 256 t + 255` of the output.  Entry `(p, q)` of the stored block is the feed-forward block of input
  row `256 t + p` at column `q`; the 64 row blocks tile the output, so the output array ends holding the
  feed-forward block of every row.  The host lines around the call only change the arrays' shapes (and narrow
  the weights, which is the identity on the extended reals): row `4096 b + s` of the [16384, 1024] arrays is
  row `(b, s)` of the [4, 4096, 1024] ones.
-/
import proofs.«180590_j70214125355100_1_alg».proof.Proof.Gen.KernelIdeal.Frame
import proofs.«180590_j70214125355100_1_alg».proof.Proof.KernelBody
import Idealize.ShloMosaic.Lib.Pipeline.Value
import Idealize.ShloMosaic.Lib.ValueLayout
import Idealize.ShloMosaic.Lib.StableHlo.Run
import Idealize.ShloMosaic.Lib.Tactic

noncomputable section

open scoped BigOperators

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The argument arrays, and the arrays the call is handed -/

abbrev argX (c : Dev nD) : FVec Ideal S4x4096x1024 .f32 := m ((c : Thread nD τ).loc main_arg0)
abbrev argW₁ (c : Dev nD) : FVec Ideal S1024x4096 .f32 := m ((c : Thread nD τ).loc main_arg1)
abbrev argB₁ (c : Dev nD) : FVec Ideal S4096 .f32 := m ((c : Thread nD τ).loc main_arg2)
abbrev argW₂ (c : Dev nD) : FVec Ideal S4096x1024 .f32 := m ((c : Thread nD τ).loc main_arg3)
abbrev argB₂ (c : Dev nD) : FVec Ideal S1024 .f32 := m ((c : Thread nD τ).loc main_arg4)

/-- The input with its two leading axes merged. -/
abbrev rowsX (c : Dev nD) : FVec Ideal S16384x1024 .f32 := shapeCast S16384x1024 (argX m c) shapeCasts_S4x4096x1024_S16384x1024

theorem entry_x (c : Dev nD) : (V m c main_v0 : FVec Ideal S16384x1024 .f32) = rowsX m c := by
  show StableHlo.after hostOps0 (fun b => m (c, b)) (Proc.devRef .tc main_v0) = _
  after_results
  rfl
theorem entry_w₁ (c : Dev nD) : (V m c main_v1 : FVec Ideal S1024x4096 .bf16) = truncf .bf16 (argW₁ m c) bitsLt_bf16_f32 := by
  show StableHlo.after hostOps0 (fun b => m (c, b)) (Proc.devRef .tc main_v1) = _
  after_results
theorem entry_w₂ (c : Dev nD) : (V m c main_v2 : FVec Ideal S4096x1024 .bf16) = truncf .bf16 (argW₂ m c) bitsLt_bf16_f32 := by
  show StableHlo.after hostOps0 (fun b => m (c, b)) (Proc.devRef .tc main_v2) = _
  after_results
theorem entry_b₁ (c : Dev nD) : (V m c main_v3 : FVec Ideal S1x4096 .f32) = shapeCast S1x4096 (argB₁ m c) shapeCasts_S4096_S1x4096 := by
  show StableHlo.after hostOps0 (fun b => m (c, b)) (Proc.devRef .tc main_v3) = _
  after_results
  rfl
theorem entry_b₂ (c : Dev nD) : (V m c main_v4 : FVec Ideal S1x1024 .f32) = shapeCast S1x1024 (argB₂ m c) shapeCasts_S1024_S1x1024 := by
  show StableHlo.after hostOps0 (fun b => m (c, b)) (Proc.devRef .tc main_v4) = _
  after_results
  rfl

/-- What the output array is to hold: the feed-forward block of every row of the merged input. -/
abbrev rowsOut (c : Dev nD) : FVec Ideal S16384x1024 .f32 :=
  GatedMlp.onRows2 (rowsX m c) (argW₁ m c) (argB₁ m c) (argW₂ m c) (argB₂ m c)

/-! ## The blocks a point is handed -/

theorem point_lt (t : Fin cfg0.N) : t.val < 64 := Nat.lt_of_lt_of_eq t.isLt N_0

/-- Row `p` of point `t`'s block is row `256 t + p` of the array. -/
def rowAt (t : Fin cfg0.N) (p : Fin 256) : Fin 16384 := ⟨t.val * 256 + p.val, by have := point_lt t; omega⟩

/-- The index maps, decided over the grid: the input's and the output's blocks move down the rows with the point,
    every other window stays on its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

abbrev xblk (c : Dev nD) (t : Fin cfg0.N) : FVec Ideal S256x1024 .f32 := iblk m c 0 t
abbrev w₁blk (c : Dev nD) (t : Fin cfg0.N) : FVec Ideal S1024x4096 .bf16 := iblk m c 1 t
abbrev b₁blk (c : Dev nD) (t : Fin cfg0.N) : FVec Ideal S1x4096 .f32 := iblk m c 2 t
abbrev w₂blk (c : Dev nD) (t : Fin cfg0.N) : FVec Ideal S4096x1024 .bf16 := iblk m c 3 t
abbrev b₂blk (c : Dev nD) (t : Fin cfg0.N) : FVec Ideal S1x1024 .f32 := iblk m c 4 t

theorem xblk_apply (c : Dev nD) (t : Fin cfg0.N) (p : Fin 256) (k : Fin 1024) :
    xblk m c t (ix2 p k) = rowsX m c (ix2 (rowAt t p) k) := by
  obtain ⟨e0, e1, -⟩ := idx_facts t
  rw [← entry_x]
  show V m c main_v0 (((cfg0.win 0).blk t).view.emb (ix2 p k)) = V m c main_v0 (ix2 (rowAt t p) k)
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

theorem w₁blk_apply (c : Dev nD) (t : Fin cfg0.N) (k : Fin 1024) (f : Fin 4096) :
    w₁blk m c t (ix2 k f) = argW₁ m c (ix2 k f) := by
  obtain ⟨-, -, e0, e1, -⟩ := idx_facts t
  rw [← truncf_apply (argW₁ m c) bitsLt_bf16_f32 (ix2 k f), ← entry_w₁]
  show V m c main_v1 (((cfg0.win 1).blk t).view.emb (ix2 k f)) = V m c main_v1 (ix2 k f)
  refine congrArg _ (funext fun a => Fin.ext ?_)
  match a with
  | ⟨0, _⟩ => show win0_1.index t (0 : Fin 2) * 1024 + 1 * k.val = k.val; omega
  | ⟨1, _⟩ => show win0_1.index t (1 : Fin 2) * 4096 + 1 * f.val = f.val; omega

theorem b₁blk_apply (c : Dev nD) (t : Fin cfg0.N) (f : Fin 4096) :
    b₁blk m c t (ix2 (0 : Fin 1) f) = argB₁ m c (ix1 f) := by
  obtain ⟨-, -, -, -, e0, e1, -⟩ := idx_facts t
  rw [← shapeCast_a_1a_apply (argB₁ m c) shapeCasts_S4096_S1x4096 (0 : Fin 1) f, ← entry_b₁]
  show V m c main_v3 (((cfg0.win 2).blk t).view.emb (ix2 (0 : Fin 1) f)) = V m c main_v3 (ix2 (0 : Fin 1) f)
  refine congrArg _ (funext fun a => Fin.ext ?_)
  match a with
  | ⟨0, _⟩ => show win0_2.index t (0 : Fin 2) * 1 + 1 * 0 = 0; omega
  | ⟨1, _⟩ => show win0_2.index t (1 : Fin 2) * 4096 + 1 * f.val = f.val; omega

theorem w₂blk_apply (c : Dev nD) (t : Fin cfg0.N) (f : Fin 4096) (q : Fin 1024) :
    w₂blk m c t (ix2 f q) = argW₂ m c (ix2 f q) := by
  obtain ⟨-, -, -, -, -, -, e0, e1, -⟩ := idx_facts t
  rw [← truncf_apply (argW₂ m c) bitsLt_bf16_f32 (ix2 f q), ← entry_w₂]
  show V m c main_v2 (((cfg0.win 3).blk t).view.emb (ix2 f q)) = V m c main_v2 (ix2 f q)
  refine congrArg _ (funext fun a => Fin.ext ?_)
  match a with
  | ⟨0, _⟩ => show win0_3.index t (0 : Fin 2) * 4096 + 1 * f.val = f.val; omega
  | ⟨1, _⟩ => show win0_3.index t (1 : Fin 2) * 1024 + 1 * q.val = q.val; omega

theorem b₂blk_apply (c : Dev nD) (t : Fin cfg0.N) (q : Fin 1024) :
    b₂blk m c t (ix2 (0 : Fin 1) q) = argB₂ m c (ix1 q) := by
  obtain ⟨-, -, -, -, -, -, -, -, e0, e1, -⟩ := idx_facts t
  rw [← shapeCast_a_1a_apply (argB₂ m c) shapeCasts_S1024_S1x1024 (0 : Fin 1) q, ← entry_b₂]
  show V m c main_v4 (((cfg0.win 4).blk t).view.emb (ix2 (0 : Fin 1) q)) = V m c main_v4 (ix2 (0 : Fin 1) q)
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * q.val = q.val; omega

/-- Entry `(p, q)` of the output's block at point `t` is entry `(256 t + p, q)` of the array. -/
theorem out_emb (t : Fin cfg0.N) (p : Fin 256) (q : Fin 1024) :
    ((cfg0.win 5).blk t).view.emb (ix2 p q) = (ix2 (rowAt t p) q : S16384x1024.Idx) := by
  obtain ⟨-, -, -, -, -, -, -, -, -, -, e0, e1⟩ := idx_facts t
  refine funext fun a => Fin.ext ?_
  match a with
  | ⟨0, _⟩ => show win0_5.index t (0 : Fin 2) * 256 + 1 * p.val = t.val * 256 + p.val; omega
  | ⟨1, _⟩ => show win0_5.index t (1 : Fin 2) * 1024 + 1 * q.val = q.val; omega

/-! ## What a point writes back, and the array after the run -/

theorem zero_off : (![0, 0] : Fin 2 → Nat) = fun _ => 0 := funext fun a => by fin_cases a <;> rfl

/-- WHAT POINT `t` WRITES BACK is block `t` of `rowsOut`. -/
theorem flushed_eq (c : Dev nD) (t : Fin cfg0.N) :
    (dats m 0 c).flushed 5 t = ((cfg0.win 5).blk t).view.read (Elt Ideal) (rowsOut m c) := by
  show (cfg0.win 5).cut (grid0.coords t) ((dats m 0 c).after 5 t) = _
  rw [after0_5]
  unfold out0_5
  rw [View.canon_unit_zero zero_off]
  simp only [View.ld_unit_zero (S := S256x1024) zero_off, View.ld_unit_zero (S := S1024x4096) zero_off,
    View.ld_unit_zero (S := S1x4096) zero_off, View.ld_unit_zero (S := S4096x1024) zero_off,
    View.ld_unit_zero (S := S1x1024) zero_off]
  funext j
  obtain ⟨p, q, rfl⟩ : ∃ (p : Fin 256) (q : Fin 1024), j = ix2 p q := ⟨j 0, j 1, eq_ix2 j⟩
  show k0_pay1 (F := Ideal) (xblk m c t) (w₁blk m c t) (b₁blk m c t) (w₂blk m c t) (b₂blk m c t) (ix2 p q)
    = rowsOut m c (((cfg0.win 5).blk t).view.emb (ix2 p q))
  rw [out_emb]
  refine (Body.stored_apply (xblk m c t) (w₁blk m c t) (b₁blk m c t) (w₂blk m c t) (b₂blk m c t) p q).trans ?_
  show _ = GatedMlp.onRows2 (rowsX m c) (argW₁ m c) (argB₁ m c) (argW₂ m c) (argB₂ m c) (ix2 (rowAt t p) q)
  rw [GatedMlp.onRows2_apply, GatedMlp.row_apply]
  simp only [xblk_apply, w₁blk_apply, b₁blk_apply, w₂blk_apply, b₂blk_apply]

/-- An index of the output array is in point `t`'s block iff each coordinate is in the block's range. -/
theorem mem_blk (t : Fin cfg0.N) (i : S16384x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v5).slice (win0_5.rect t)).set ↔ _
  rw [View.set_slice_whole, Rect.mem_set_unit]
  exact Iff.rfl

/-- Every row of the output is in the block of the point `row / 256`. -/
theorem cover (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  have hN : cfg0.N = 64 := N_0
  obtain ⟨t, ht⟩ : ∃ t : Fin cfg0.N, t.val = (i 0).val / 256 := ⟨⟨(i 0).val / 256, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- THE OUTPUT ARRAY after the run. -/
theorem final (c : Dev nD) : (dats m 0 c).arrAt 5 cfg0.N = rowsOut m c :=
  (dats m 0 c).arrAt_eq_of_cover 5 (rowsOut m c) (fun t _ => flushed_eq m c t) cover

end Cert.KernelIdeal.Rows

end
-- ==== Proof.KernelRun.lean ====
/-
  The kernel program's run, read: its result as the feed-forward block of every row.

  After the call the output array is reshaped back to [4, 4096, 1024].  A reshape keeps the row-major order,
  so entry `(b, s, d)` of the result is entry `(4096 b + s, d)` of the [16384, 1024] output, and row
  `4096 b + s` of the merged input is row `(b, s)` of the input: the result is the feed-forward block applied
  to every `(batch, seq)` row.
-/
import proofs.«180590_j70214125355100_1_alg».proof.Proof.KernelArray

noncomputable section

open scoped BigOperators

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Row `(b, s)` of a [4, 4096, ·] array is row `4096 b + s` of the same array with its leading axes merged. -/
def mergedRow (b : Fin 4) (s : Fin 4096) : Fin 16384 := ⟨b.val * 4096 + s.val, by omega⟩

theorem rowsX_apply (c : Dev nD) (b : Fin 4) (s : Fin 4096) (k : Fin 1024) :
    rowsX m c (ix2 (mergedRow b s) k) = argX m c (ix3 b s k) :=
  shapeCast_apply (argX m c) shapeCasts_S4x4096x1024_S16384x1024 (ix2 (mergedRow b s) k) (ix3 b s k) (by
    rw [Shape.rowMajor_val_three, Shape.rowMajor_val_two]; rfl)

/-- What the program's result is to hold. -/
abbrev result (c : Dev nD) : FVec Ideal S4x4096x1024 .f32 :=
  GatedMlp.onRows3 (argX m c) (argW₁ m c) (argB₁ m c) (argW₂ m c) (argB₂ m c)

/-- The output reshaped back is the feed-forward block of every `(batch, seq)` row. -/
theorem unmerge (c : Dev nD) :
    shapeCast S4x4096x1024 (rowsOut m c) shapeCasts_S16384x1024_S4x4096x1024 = result m c := by
  funext i
  obtain ⟨b, s, d, rfl⟩ : ∃ (b : Fin 4) (s : Fin 4096) (d : Fin 1024), i = ix3 b s d := ⟨i 0, i 1, i 2, eq_ix3 i⟩
  rw [shapeCast_apply (rowsOut m c) shapeCasts_S16384x1024_S4x4096x1024 (ix3 b s d) (ix2 (mergedRow b s) d) (by
    rw [Shape.rowMajor_val_three, Shape.rowMajor_val_two]; rfl)]
  show GatedMlp.onRows2 (rowsX m c) (argW₁ m c) (argB₁ m c) (argW₂ m c) (argB₂ m c) (ix2 (mergedRow b s) d)
    = GatedMlp.onRows3 (argX m c) (argW₁ m c) (argB₁ m c) (argW₂ m c) (argB₂ m c) (ix3 b s d)
  rw [GatedMlp.onRows2_apply, GatedMlp.onRows3_apply]
  simp only [rowsX_apply]

/-- The program's result after the host line that follows the call. -/
theorem tail_result (c : Dev nD) :
    Pipeline.afterTail₀ cfgs (dats m) 0 (V0 m) [hostOps1] c main_v6 = result m c := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = rowsOut m c :=
    (Pipeline.withArrays_arr spec0 launch0.win.arr_inj c _ _ 5).trans (final m c)
  exact (congrArg (fun A : FVec Ideal S16384x1024 .f32 => shapeCast S4x4096x1024 A shapeCasts_S16384x1024_S4x4096x1024) e).trans
    (unmerge m c)

/-- THE RUN, READ: every weakly fair execution of the kernel program ends with its result at the feed-forward block
    of every row of the input, and its five arguments as they were. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨((h c).2 main_v6 (Pipeline.mem_restRefs_of main_v6 (by decide) (by decide))).trans (tail_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.Rows

end
-- ==== Proof.RefValue.lean ====
/-
  The reference, read at one entry.

  The reference contracts the last axis of the [4, 4096, 1024] input with the first weight matrix, adds the
  bias along the last axis, gates every hidden value, contracts with the second weight matrix and adds the
  second bias.  Entry `(b, s, d)` of its result therefore depends on row `(b, s)` of the input alone, and is
  the feed-forward block of that row at column `d`.
-/
import proofs.«180590_j70214125355100_1_alg».proof.Proof.Gen.ReferenceIdeal.Read
import proofs.«180590_j70214125355100_1_alg».proof.Proof.GatedMlp

noncomputable section

open scoped BigOperators

namespace Cert.ReferenceIdeal.RefValue

open Cert.ReferenceIdeal Cert.ReferenceIdeal.Read Idealize.ShloMosaic Idealize.ShloMosaic.ValueIdx

/-! ## The contractions' and the biases' index maps, by coordinates -/

theorem lidx_hidden (b : Fin 4) (s : Fin 4096) (f : Fin 4096) (k : Fin 1024) : lidx_main_v0 (ix3 b s f) k = ix3 b s k :=
  funext fun a => by match a with | ⟨0, _⟩ => rfl | ⟨1, _⟩ => rfl | ⟨2, _⟩ => rfl
theorem ridx_hidden (b : Fin 4) (s : Fin 4096) (f : Fin 4096) (k : Fin 1024) : ridx_main_v0 (ix3 b s f) k = ix2 k f :=
  funext fun a => by match a with | ⟨0, _⟩ => rfl | ⟨1, _⟩ => rfl
theorem lidx_out (b : Fin 4) (s : Fin 4096) (d : Fin 1024) (k : Fin 4096) : lidx_main_v16 (ix3 b s d) k = ix3 b s k :=
  funext fun a => by match a with | ⟨0, _⟩ => rfl | ⟨1, _⟩ => rfl | ⟨2, _⟩ => rfl
theorem ridx_out (b : Fin 4) (s : Fin 4096) (d : Fin 1024) (k : Fin 4096) : ridx_main_v16 (ix3 b s d) k = ix2 k d :=
  funext fun a => by match a with | ⟨0, _⟩ => rfl | ⟨1, _⟩ => rfl
theorem bias_hidden (b : Fin 4) (s : Fin 4096) (f : Fin 4096) : idx_main_v1 (idx_main_v2 (ix3 b s f)) = ix1 f :=
  funext fun a => by match a with | ⟨0, _⟩ => rfl
theorem bias_out (b : Fin 4) (s : Fin 4096) (d : Fin 1024) : idx_main_v17 (idx_main_v18 (ix3 b s d)) = ix1 d :=
  funext fun a => by match a with | ⟨0, _⟩ => rfl

/-! ## The three stages -/

/-- The hidden row before the gate: the first dense layer of input row `(b, s)`, at column `f`. -/
theorem hidden_apply (X : FVec Ideal S4x4096x1024 .f32) (W₁ : FVec Ideal S1024x4096 .f32) (b₁ : FVec Ideal S4096 .f32)
    (b : Fin 4) (s : Fin 4096) (f : Fin 4096) :
    val_main_v3 (F := Ideal) X W₁ b₁ (ix3 b s f) = RowOps.dense W₁ b₁ (fun k => X (ix3 b s k)) f := by
  rw [val_main_v3_apply, val_main_v0_apply, val_main_v2_apply, val_main_v1_apply, bias_hidden]
  simp only [lidx_hidden, ridx_hidden]
  rfl

/-- The gated hidden value is the gate of the hidden value. -/
theorem gated_apply (X : FVec Ideal S4x4096x1024 .f32) (W₁ : FVec Ideal S1024x4096 .f32) (b₁ : FVec Ideal S4096 .f32)
    (i : S4x4096x4096.Idx) :
    val_main_v15 (F := Ideal) X W₁ b₁ i = GatedMlp.gate (val_main_v3 (F := Ideal) X W₁ b₁ i) := by
  rw [val_main_v15_apply, val_main_v14_apply, val_main_v9_apply, val_main_v8_apply, val_main_cst_1_apply, val_main_v7_apply,
    val_main_v6_apply, val_main_cst_0_apply, val_main_v13_apply, val_main_v12_apply, val_main_cst_2_apply, val_main_v11_apply,
    val_main_v10_apply, val_main_v5_apply, val_main_v4_apply, val_main_cst_apply]
  rfl

/-- THE REFERENCE'S RESULT is the feed-forward block applied to every `(batch, seq)` row. -/
theorem result_eq (X : FVec Ideal S4x4096x1024 .f32) (W₁ : FVec Ideal S1024x4096 .f32) (b₁ : FVec Ideal S4096 .f32)
    (W₂ : FVec Ideal S4096x1024 .f32) (b₂ : FVec Ideal S1024 .f32) :
    val_main_v19 (F := Ideal) X W₁ b₁ W₂ b₂ = GatedMlp.onRows3 X W₁ b₁ W₂ b₂ := by
  funext i
  obtain ⟨b, s, d, rfl⟩ : ∃ (b : Fin 4) (s : Fin 4096) (d : Fin 1024), i = ix3 b s d := ⟨i 0, i 1, i 2, eq_ix3 i⟩
  rw [val_main_v19_apply, val_main_v16_apply, val_main_v18_apply, val_main_v17_apply, bias_out, GatedMlp.onRows3_apply,
    GatedMlp.row_apply]
  show (∑ f : Fin 4096, _) + _ = (∑ f : Fin 4096, _) + _
  congr 1
  refine Finset.sum_congr rfl fun f _ => ?_
  rw [lidx_out, ridx_out, gated_apply, hidden_apply]
  rfl

end Cert.ReferenceIdeal.RefValue

end
-- ==== Proof.lean ====
/-
  A fused feed-forward block against its einsum reference, over the extended reals.

  Both programs send every row `x` of the [4, 4096, 1024] input through the same function: a dense layer
  `h = x·W₁ + b₁` to width 4096, the gate `h ↦ h · (1/2 + z/4 - c₃·z³)` with `z = c₁·h` applied to every hidden
  value, and a second dense layer `g·W₂ + b₂` back to width 1024.  The kernel works on the input with its two
  leading axes merged, 256 rows to a grid point, with the weights narrowed to bf16 (the identity on the
  extended reals) and its matrix products accumulated from zero; the reference contracts the last axis of
  the rank-3 arrays directly.  The four coefficients are the same f32 words on both sides and the operations
  come in the same order, so no law of arithmetic beyond reading each matrix product as a sum is needed, and
  the finiteness of the inputs is never used.

  The kernel side (what a grid point stores, the array after the run, the reshapes around the call) is in
  KernelBody, KernelArray and KernelRun; the reference side in RefValue; the function of a row in GatedMlp.
-/
import proofs.«180590_j70214125355100_1_alg».proof.Defs
import proofs.«180590_j70214125355100_1_alg».proof.Proof.Gen.Kernel
import proofs.«180590_j70214125355100_1_alg».proof.Proof.Gen.Kernel.Skeleton
import proofs.«180590_j70214125355100_1_alg».proof.Proof.Gen.Kernel.Launch
import proofs.«180590_j70214125355100_1_alg».proof.Proof.Gen.Kernel.Points
import proofs.«180590_j70214125355100_1_alg».proof.Proof.Gen.Kernel.Frame
import proofs.«180590_j70214125355100_1_alg».proof.Proof.Gen.KernelIdeal
import proofs.«180590_j70214125355100_1_alg».proof.Proof.Gen.KernelIdeal.Skeleton
import proofs.«180590_j70214125355100_1_alg».proof.Proof.Gen.KernelIdeal.Launch
import proofs.«180590_j70214125355100_1_alg».proof.Proof.Gen.KernelIdeal.Points
import proofs.«180590_j70214125355100_1_alg».proof.Proof.Gen.KernelIdeal.Frame
import proofs.«180590_j70214125355100_1_alg».proof.Proof.Gen.ReferenceIdeal
import proofs.«180590_j70214125355100_1_alg».proof.Proof.Gen.Pre_finite_inputs
import proofs.«180590_j70214125355100_1_alg».proof.Proof.Gen.ReferenceIdeal.Run
import proofs.«180590_j70214125355100_1_alg».proof.Proof.Gen.ReferenceIdeal.Read
import proofs.«180590_j70214125355100_1_alg».proof.Proof.KernelRun
import proofs.«180590_j70214125355100_1_alg».proof.Proof.RefValue
import Idealize.ShloMosaic.Adequacy
import Idealize.ShloMosaic.Init

noncomputable section

namespace Cert.Proof

open Idealize.ShloMosaic Idealize.SL.Sem

/-- The reference terminates with its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the feed-forward block of every
    `(batch, seq)` row of the input: the kernel by its run read block by block, the reference by its stages read
    at an entry. -/
theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
